-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x100000 : Shape := ⟨2, ![128, 100000]⟩
abbrev S_ : Shape := ⟨0, ![]⟩

class Facts : Prop where
  bcast_S_S128x100000 : S_.BroadcastsInDim S128x100000 (![] : Fin 0 → Fin S128x100000.rank)
  reducesTo_S128x100000_S_d0_1 : S128x100000.ReducesTo [0, 1] S_
  h_S_ : 0 < S_.numel

variable [Facts]

def fn {F : FTy → Type} [FloatOps F] (main_arg0 : FVec F S128x100000 .f32) (main_arg1 : FVec F S128x100000 .f32) : IVec S_ 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  let main_c : IVec S_ 1 := constantI S_ 1 1#1
  let main_v3 : IVec S_ 1 := (fun x v => Host.reduce IntOp.andi x v reducesTo_S128x100000_S_d0_1 h_S_) main_v2 main_c
  let main_v4 : FVec F S128x100000 .f32 := Host.absf main_arg1
  let main_cst_0 : FVec F S_ .f32 := constant S_ .f32 0x7F800000#32
  let main_v5 : FVec F S128x100000 .f32 := broadcastInDim S128x100000 ![] bcast_S_S128x100000 main_cst_0
  let main_v6 : IVec S128x100000 1 := cmpf .olt main_v4 main_v5
  let main_c_1 : IVec S_ 1 := constantI S_ 1 1#1
  let main_v7 : IVec S_ 1 := (fun x v => Host.reduce IntOp.andi x v reducesTo_S128x100000_S_d0_1 h_S_) main_v6 main_c_1
  let main_v8 : IVec S_ 1 := andi main_v3 main_v7
  main_v8
-- ==== Kernel.lean ====
abbrev S128x100000 : Shape := ⟨2, ![128, 100000]⟩
abbrev S8x100000 : Shape := ⟨2, ![8, 100000]⟩
abbrev S8 : Shape := ⟨1, ![8]⟩
abbrev S8x1 : Shape := ⟨2, ![8, 1]⟩

abbrev nBuf : Space → Nat
  | .hbm => 3
  | .vmem => 6
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x100000, .f32⟩
  | .local _ .vmem, ⟨0, _⟩ => ⟨S8x100000, .f32⟩
  | .local _ .vmem, ⟨1, _⟩ => ⟨S8x100000, .f32⟩
  | .local _ .vmem, ⟨2, _⟩ => ⟨S8x100000, .f32⟩
  | .local _ .vmem, ⟨3, _⟩ => ⟨S8x100000, .f32⟩
  | .local _ .vmem, ⟨4, _⟩ => ⟨S8x100000, .f32⟩
  | .local _ .vmem, ⟨5, _⟩ => ⟨S8x100000, .f32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x100000_S8x100000_0_0 : ∀ a, (![0, 0] : Fin 2 → Nat) a + S8x100000.size a ≤ S8x100000.size a
  h_S8x100000 : 0 < S8x100000.numel
  reduces_S8x100000_S8 : S8x100000.Reduces [1] S8
  shapeCasts_S8_S8x1 : S8.ShapeCasts S8x1
  broadcasts_S8x1_S8x100000 : S8x1.Broadcasts S8x100000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x100000.size a ≤ S128x100000.size a
  hwx0_0 : ∀ i : grid0.Coords, EltTy.bits .f32 = 32 ∨ (Rect.block (s := S128x100000) S8x100000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x100000.size a ≤ S128x100000.size a
  hwx0_1 : ∀ i : grid0.Coords, EltTy.bits .f32 = 32 ∨ (Rect.block (s := S128x100000) S8x100000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x100000.size a ≤ S128x100000.size a
  hwx0_2 : ∀ i : grid0.Coords, EltTy.bits .f32 = 32 ∨ (Rect.block (s := S128x100000) S8x100000.size (cc0_transform_2 i) (hinb0_2 i)).WholeWords (EltTy.packing .f32)

variable [Facts₀]

abbrev win0_0 : Pipeline.Window sig grid0 :=
  Pipeline.Window.ofSpec (Memref.whole main_arg0) S8x100000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x100000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x100000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x100000 : Shape := ⟨2, ![128, 100000]⟩
abbrev S_ : Shape := ⟨0, ![]⟩
abbrev S128 : Shape := ⟨1, ![128]⟩
abbrev S128x1 : Shape := ⟨2, ![128, 1]⟩

abbrev nBuf : Space → Nat
  | .hbm => 20
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x100000, .f32⟩
  | .hbm, ⟨3, _⟩ => ⟨S_, .f32⟩
  | .hbm, ⟨4, _⟩ => ⟨S128x100000, .f32⟩
  | .hbm, ⟨5, _⟩ => ⟨S128x100000, .f32⟩
  | .hbm, ⟨6, _⟩ => ⟨S_, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128x1, .f32⟩
  | .hbm, ⟨12, _⟩ => ⟨S128x100000, .f32⟩
  | .hbm, ⟨13, _⟩ => ⟨S128x100000, .f32⟩
  | .hbm, ⟨14, _⟩ => ⟨S128x100000, .f32⟩
  | .hbm, ⟨15, _⟩ => ⟨S_, .f32⟩
  | .hbm, ⟨16, _⟩ => ⟨S128, .f32⟩
  | .hbm, ⟨17, _⟩ => ⟨S128x1, .f32⟩
  | .hbm, ⟨18, _⟩ => ⟨S128x100000, .f32⟩
  | .hbm, ⟨19, _⟩ => ⟨S128x100000, .f32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S128x100000 : S_.BroadcastsInDim S128x100000 (![] : Fin 0 → Fin S128x100000.rank)
  reducesTo_S128x100000_S128_d1 : S128x100000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)

variable [Facts₀]

class Facts : Prop extends Facts₀ where

variable [Facts]
-- ==== Proof.Finite.lean ====
/-
  What the precondition gives. `finite_inputs` is the conjunction of two `jnp.all (|a| < +∞)`, one per argument array; it
  being all ones says each `all` is 1, so the comparison is 1 at every index, that is `max (a i) (-(a i)) < ⊤` on the
  extended reals — which excludes both `⊤` and `⊥`, so every entry of each argument is a real number.
-/
import proofs.«146944_g81492709474519_cont_9to1c4b_556_2_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal.Laws

noncomputable section

namespace Cert.Pre_finite_inputs.Finite

open Cert.Pre_finite_inputs Cert.Pre_finite_inputs.Facts
open Idealize.ShloMosaic Idealize.ShloMosaic.ValueIdx

/-- The scalar shape has one index. -/
instance : Subsingleton S_.Idx := ⟨fun _ _ => funext fun d => d.elim0⟩

/-- An extended real whose absolute value is below `+∞` is a real. -/
theorem real_of_abs_lt_top (x : EReal) (h : max x (-x) < ⊤) : ∃ r : ℝ, x = r := by
  induction x using EReal.rec with
  | bot => exact absurd h (by simp)
  | top => exact absurd h (by simp)
  | coe r => exact ⟨r, rfl⟩

/-- One `jnp.all (|a| < +∞)` that is 1: every entry of `a` is a real. -/
theorem all_real (a : FVec Ideal S128x100000 .f32)
    (h : Host.reduce IntOp.andi (cmpf .olt (Host.absf a)
          (broadcastInDim S128x100000 ![] bcast_S_S128x100000 (constant (F := Ideal) S_ .f32 0x7F800000#32)))
        (constantI S_ 1 1#1) reducesTo_S128x100000_S_d0_1 h_S_ ix0 = 1#1)
    (i : S128x100000.Idx) : ∃ r : ℝ, a i = r := by
  have hi := Host.reduce_andi_all _ _ _ _ _ h i
  have hb : broadcastInDim S128x100000 ![] bcast_S_S128x100000 (constant (F := Ideal) S_ .f32 0x7F800000#32) i = (⊤ : EReal) := by
    rw [broadcastInDim_apply _ bcast_S_S128x100000 _ i ix0 (fun a => a.elim0)]
    show Ideal.ofBits .f32 0x7F800000#32 = ⊤
    simp [Ideal.ofBits, Ideal.ieee]
  have hc : Ideal.cmp .olt (max (a i) (-(a i))) (broadcastInDim S128x100000 ![] bcast_S_S128x100000 (constant (F := Ideal) S_ .f32 0x7F800000#32) i) = 1#1 := hi
  rw [hb] at hc
  refine real_of_abs_lt_top _ ?_
  by_contra hn
  simp [Ideal.cmp, hn] at hc

/-- THE PRECONDITION READ BACK: both argument arrays hold reals only. -/
theorem real_inputs (a0 a1 : FVec Ideal S128x100000 .f32) (h : fn (F := Ideal) a0 a1 = fun _ => 1#1) :
    (∀ i, ∃ r : ℝ, a0 i = r) ∧ (∀ i, ∃ r : ℝ, a1 i = r) := by
  have h0 := congrFun h ix0
  dsimp only [fn] at h0
  obtain ⟨ha, hb⟩ := IntOp.andi_eq_one.1 h0
  exact ⟨all_real a0 ha, all_real a1 hb⟩

end Cert.Pre_finite_inputs.Finite

end
-- ==== Proof.SoftmaxRow.lean ====
/-
  A row's softmax over the extended reals, and the one law this certificate rests on.

  For a row `r : ι → EReal` over a finite index type:
    * `rowMax r`   the maximum of the row, folded from `⊥` (= -∞);
    * `rowExp r k` `exp (r k - rowMax r)`, the shifted exponential;
    * `rowSum r`   the sum of the shifted exponentials;
    * `softmaxRow r k = rowExp r k / rowSum r`, the quotient as `Ideal.div` takes it.

  The two programs differ in how they divide: one forms the reciprocal `1 / rowSum r` once per row and multiplies,
  the other divides each entry by `rowSum r`. On the extended reals `Ideal.div x y = x * y⁻¹` as soon as `y ≠ 0`, so the
  two agree exactly when the row's sum is not zero (at `y = 0` they differ: `0 * (1/0) = 0` but `0/0 = ⊥`). For a row
  of REAL entries the maximum is a real (it is below `⊤` because every entry is, and above `⊥` because it is at least
  any one entry), so every shifted exponential is a positive real, and the sum — at least any one of its nonnegative
  terms — is positive: `rowSum_ne_zero`, and from it `rowExp_mul_one_div`.
-/
import Idealize.ShloMosaic.PureOps.Ideal
import Mathlib.Data.Finset.Fold
import Mathlib.Algebra.Order.BigOperators.Group.Finset

noncomputable section

open scoped BigOperators

namespace Cert.Softmax

open Idealize.ShloMosaic

variable {ι : Type} [Fintype ι]

/-- The row's maximum, from `-∞`. -/
def rowMax (r : ι → EReal) : EReal := (Finset.univ : Finset ι).fold max ⊥ r

/-- An entry's exponential after the row's maximum is subtracted. -/
def rowExp (r : ι → EReal) (k : ι) : EReal := Ideal.exp (r k - rowMax r)

/-- The sum of the row's shifted exponentials. -/
def rowSum (r : ι → EReal) : EReal := ∑ k, rowExp r k

/-- The row's softmax at an entry: the shifted exponential over their sum. -/
def softmaxRow (r : ι → EReal) (k : ι) : EReal := Ideal.div (rowExp r k) (rowSum r)

/-- The exponential of an extended real is never negative (`exp ⊥ = 0`, `exp ⊤ = ⊤`). -/
theorem exp_nonneg (x : EReal) : 0 ≤ Ideal.exp x := by
  induction x using EReal.rec with
  | bot => exact le_of_eq rfl
  | top => exact le_top
  | coe x => exact EReal.coe_nonneg.mpr (Real.exp_pos x).le

/-- Every entry of a row is at most the row's maximum. -/
theorem le_rowMax (r : ι → EReal) (k : ι) : r k ≤ rowMax r :=
  Finset.le_fold_max (r k) |>.mpr (Or.inr ⟨k, Finset.mem_univ k, le_rfl⟩)

/-- A nonempty row of reals has a real maximum. -/
theorem rowMax_real (r : ι → EReal) (hr : ∀ k, ∃ x : ℝ, r k = x) (k0 : ι) : ∃ M : ℝ, rowMax r = M := by
  have htop : rowMax r ≠ ⊤ := by
    refine ne_of_lt ((Finset.fold_max_lt ⊤).mpr ⟨bot_lt_top, fun k _ => ?_⟩)
    obtain ⟨x, hx⟩ := hr k
    rw [hx]; exact EReal.coe_lt_top x
  have hbot : rowMax r ≠ ⊥ := by
    obtain ⟨x, hx⟩ := hr k0
    refine ne_of_gt (lt_of_lt_of_le ?_ (le_rowMax r k0))
    rw [hx]; exact EReal.bot_lt_coe x
  exact ⟨(rowMax r).toReal, (EReal.coe_toReal htop hbot).symm⟩

/-- In a nonempty row of reals every shifted exponential is positive. -/
theorem rowExp_pos (r : ι → EReal) (hr : ∀ k, ∃ x : ℝ, r k = x) (k : ι) : 0 < rowExp r k := by
  obtain ⟨M, hM⟩ := rowMax_real r hr k
  obtain ⟨x, hx⟩ := hr k
  unfold rowExp
  rw [hM, hx, ← EReal.coe_sub, Ideal.exp_coe]
  exact EReal.coe_pos.mpr (Real.exp_pos _)

/-- So the sum of a nonempty real row's shifted exponentials is not zero: it is at least one positive term, the others
    being nonnegative. -/
theorem rowSum_ne_zero (r : ι → EReal) (hr : ∀ k, ∃ x : ℝ, r k = x) (k0 : ι) : rowSum r ≠ 0 := by
  have h1 : rowExp r k0 ≤ rowSum r :=
    Finset.single_le_sum (f := rowExp r) (fun k _ => exp_nonneg _) (Finset.mem_univ k0)
  exact ne_of_gt (lt_of_lt_of_le (rowExp_pos r hr k0) h1)

/-- THE LAW: in a row of reals, the shifted exponential times the reciprocal of the sum is the shifted exponential
    divided by the sum. -/
theorem rowExp_mul_one_div (r : ι → EReal) (hr : ∀ k, ∃ x : ℝ, r k = x) (k : ι) :
    rowExp r k * Ideal.div 1 (rowSum r) = softmaxRow r k := by
  have hs := rowSum_ne_zero r hr k
  unfold softmaxRow Ideal.div
  rw [if_neg hs, if_neg hs, one_mul]

end Cert.Softmax

end
-- ==== Proof.Spec.lean ====
/-
  The specification: the softmax of `a0 + a1` along the rows of a [128, 100000] array, as ONE function `G` of the two
  argument arrays, index by index. Entry `(p, q)` of `G a0 a1` is `softmaxRow` of row `p` of the elementwise sum, at `q`:
      exp (x p q - max_k x p k) / Σ_k exp (x p k - max_k x p k),      x = a0 + a1.
  `Gk` is the same array with the division arranged as the kernel does it — the reciprocal of the row's sum, then a
  product —, equal to `G` on arrays of reals (`Gk_eq_G`, by `rowExp_mul_one_div`).
  Also the three constants the two programs spell as bit patterns (1.0, -∞, and division by 1.0).
-/
import proofs.«146944_g81492709474519_cont_9to1c4b_556_2_alg».proof.Proof.SoftmaxRow
import Idealize.ShloMosaic.Lib.ValueIdx

noncomputable section

namespace Cert.Softmax

open Idealize.ShloMosaic Idealize.ShloMosaic.ValueIdx

/-- The arrays' shape. -/
abbrev Arr : Shape := ⟨2, ![128, 100000]⟩

/-- Row `p` of the elementwise sum of two arrays. -/
def rowOf (a0 a1 : Arr.Idx → EReal) (p : Fin 128) : Fin 100000 → EReal := fun k => a0 (ix2 p k) + a1 (ix2 p k)

/-- The result array: each row of `a0 + a1` through `softmaxRow`. -/
def G (a0 a1 : Arr.Idx → EReal) : Arr.Idx → EReal := fun i => softmaxRow (rowOf a0 a1 (i 0)) (i 1)

/-- The same array with each row's reciprocal sum formed first and multiplied in: the kernel's arrangement. -/
def Gk (a0 a1 : Arr.Idx → EReal) : Arr.Idx → EReal :=
  fun i => rowExp (rowOf a0 a1 (i 0)) (i 1) * Ideal.div 1 (rowSum (rowOf a0 a1 (i 0)))

/-- On arrays of reals the two arrangements agree: every row of the sum is a row of reals, whose `rowSum` is not zero. -/
theorem Gk_eq_G (a0 a1 : Arr.Idx → EReal) (h0 : ∀ i, ∃ x : ℝ, a0 i = x) (h1 : ∀ i, ∃ x : ℝ, a1 i = x) :
    Gk a0 a1 = G a0 a1 := by
  funext i
  refine rowExp_mul_one_div _ (fun k => ?_) (i 1)
  obtain ⟨x, hx⟩ := h0 (ix2 (i 0) k)
  obtain ⟨y, hy⟩ := h1 (ix2 (i 0) k)
  exact ⟨x + y, by unfold rowOf; rw [hx, hy, EReal.coe_add]⟩

/-- The pattern of `1.0` denotes the real one. -/
theorem ofBits_one : Ideal.ofBits .f32 0x3F800000#32 = 1 := by
  simp [Ideal.ofBits, Ideal.ieee, -EReal.coe_mul]; norm_num

/-- The pattern of `-inf` denotes the bottom of the extended reals. -/
theorem ofBits_neg_inf : Ideal.ofBits .f32 0xFF800000#32 = ⊥ := by
  simp [Ideal.ofBits, Ideal.ieee]

/-- Dividing by one changes nothing, at the infinities too. -/
theorem div_one (x : EReal) : Ideal.div x 1 = x := by
  rw [← EReal.coe_one, Ideal.div_coe one_ne_zero]
  simp

end Cert.Softmax

end
-- ==== Proof.RefValue.lean ====
/-
  The reference computes `G`. Its operations, read one at a time at an index:
    * the sum `a0 + a1` divided by the constant 1.0 is the sum (`sum_at`);
    * the row maximum: the host's reduction from -∞ over the second axis is the fold of `max` over the row's
      100000 coordinates, and the further `max` with -∞ changes nothing (`max_at`);
    * the exponential of the difference, entry by entry (`exp_at`);
    * the row sum from 0 (`rowSum_at`);
    * the quotient (`ref_eq`).
-/
import proofs.«146944_g81492709474519_cont_9to1c4b_556_2_alg».proof.Proof.Gen.ReferenceIdeal.Read
import proofs.«146944_g81492709474519_cont_9to1c4b_556_2_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.Softmax
open Idealize.ShloMosaic Idealize.ShloMosaic.ValueIdx

variable (x0 x1 : (⟨S128x100000, .f32⟩ : BufTy).Contents (Elt Ideal))

/-- The elementwise sum, divided by 1.0, at an index. -/
theorem sum_at (j : S128x100000.Idx) : val_main_v2 (F := Ideal) x0 x1 j = x0 j + x1 j := by
  rw [val_main_v2_apply, val_main_v0_apply, val_main_v1_apply, val_main_cst_apply]
  show Ideal.div (x0 j + x1 j) (Ideal.ofBits .f32 0x3F800000#32) = _
  rw [ofBits_one, div_one]

/-- The row maximum the reference takes is `rowMax` of the row. -/
theorem max_at (p : S128.Idx) : val_main_v5 (F := Ideal) x0 x1 p = rowMax (rowOf x0 x1 (p 0)) := by
  rw [val_main_v5_apply, val_main_v4_apply, val_main_cst_1_apply]
  show max (Ideal.ofBits .f32 0xFF800000#32) (val_main_v3 (F := Ideal) x0 x1 p) = _
  rw [ofBits_neg_inf, max_eq_right bot_le]
  unfold val_main_v3
  rw [Host.reduce_eq_fold_single FloatOps.maximumf _ _ reducesTo_S128x100000_S128_d1 (by decide) h_S_ p]
  show (Finset.univ : Finset (Fin 100000)).fold max (Ideal.ofBits .f32 0xFF800000#32) _ = (Finset.univ : Finset (Fin 100000)).fold max ⊥ _
  rw [ofBits_neg_inf]
  refine Finset.fold_congr (fun k _ => ?_)
  show val_main_v2 (F := Ideal) x0 x1 _ = _
  rw [sum_at]
  unfold rowOf
  congr 2 <;> exact funext fun a => Fin.ext (by match a with | ⟨0, _⟩ => rfl | ⟨1, _⟩ => rfl)

/-- The shifted exponential at entry `(p, q)`. -/
theorem exp_at (p : Fin 128) (q : Fin 100000) :
    val_main_v9 (F := Ideal) x0 x1 (ix2 p q) = rowExp (rowOf x0 x1 p) q := by
  rw [val_main_v9_apply, val_main_v8_apply, val_main_v7_apply, val_main_v6_apply, max_at, sum_at]
  rfl

/-- The row sum the reference takes is `rowSum` of the row. -/
theorem rowSum_at (p : S128.Idx) : val_main_v10 (F := Ideal) x0 x1 p = rowSum (rowOf x0 x1 (p 0)) := by
  rw [val_main_v10_apply, val_main_cst_2_apply]
  show Ideal.ofBits .f32 0x00000000#32 + _ = _
  rw [Ideal.ofBits_zero_f32, zero_add]
  unfold rowSum
  refine Finset.sum_congr rfl (fun k _ => ?_)
  have e : idx_main_v10 p k = ix2 (n0 := 128) (n1 := 100000) (p 0) k :=
    funext fun a => Fin.ext (by match a with | ⟨0, _⟩ => rfl | ⟨1, _⟩ => rfl)
  exact (congrArg (val_main_v9 (F := Ideal) x0 x1) e).trans (exp_at x0 x1 (p 0) k)

/-- THE REFERENCE'S RESULT is `G` of its arguments. -/
theorem ref_eq : val_main_v13 (F := Ideal) x0 x1 = G x0 x1 := by
  funext i
  obtain ⟨p, q, rfl⟩ : ∃ (p : Fin 128) (q : Fin 100000), i = ix2 p q := ⟨i 0, i 1, eq_ix2 i⟩
  rw [val_main_v13_apply, val_main_v12_apply, val_main_v11_apply, rowSum_at, exp_at]
  rfl

end Cert.ReferenceIdeal.RefValue

end
-- ==== Proof.KernelBlock.lean ====
/-
  The kernel's body on one block of 8 rows. For the two loaded blocks `P0`, `P1` (8 × 100000 each), the block the
  body stores is, at entry `(b, q)`,
      exp (x b q - max_k x b k) * (1 / Σ_k exp (x b k - max_k x b k)),     x = P0 + P1:
  `rowExp` of row `b` of the block times the reciprocal of its `rowSum`. The lane reductions are read as the fold of
  `max` from -∞ and as the sum over the row's 100000 coordinates; the row maximum, kept as a column [8, 1] and
  broadcast along the row, is read back at `(b, q)` as the maximum of row `b`.
-/
import proofs.«146944_g81492709474519_cont_9to1c4b_556_2_alg».proof.Proof.Gen.KernelIdeal.Value
import proofs.«146944_g81492709474519_cont_9to1c4b_556_2_alg».proof.Proof.Spec
import Idealize.ShloMosaic.PureOps.Ideal.Laws
import Idealize.ShloMosaic.Lib.Pipeline.Value
import Idealize.ShloMosaic.Lib.ValueIdx

noncomputable section

namespace Cert.KernelIdeal.Block

open Cert.KernelIdeal Cert.KernelIdeal.Gen Cert.Softmax
open Idealize.ShloMosaic Idealize.ShloMosaic.ValueIdx

/-- Row `b` of the elementwise sum of the two loaded blocks. -/
def blockRow (P0 P1 : FVec Ideal S8x100000 .f32) (b : Fin 8) : Fin 100000 → EReal :=
  fun k => P0 (ix2 b k) + P1 (ix2 b k)

/-- A vector of 8 row values, cast to a column [8, 1] and broadcast along the rows of [8, 100000], read at `(b, q)`: the value of row `b`. -/
theorem column_broadcast_apply {α : Type} (v : S8.Idx → α) (hs : S8.ShapeCasts S8x1) (hb : S8x1.Broadcasts S8x100000)
    (b : Fin 8) (q : Fin 100000) :
    broadcastTo S8x100000 (shapeCast S8x1 v hs) hb (ix2 b q) = v (ix1 b) := by
  refine (broadcastTo_apply _ hb (ix2 b q) (ix2 b (0 : Fin 1)) (fun a => match a with
    | ⟨0, _⟩ => by show b.val = (if (8 : Nat) = 1 then 0 else b.val); rw [if_neg (by decide)]
    | ⟨1, _⟩ => by show 0 = (if (1 : Nat) = 1 then 0 else q.val); rw [if_pos rfl])).trans ?_
  exact shapeCast_apply _ hs (ix2 b (0 : Fin 1)) (ix1 b)
    (by rw [Shape.rowMajor_val_one, Shape.rowMajor_val_two]; show b.val = b.val * 1 + 0; omega)

/-- The source index of the lane reduction over result row `b` at lane `k` is `(b, k)`. -/
theorem lift_eq (h : S8x100000.Reduces [1] S8) (b : Fin 8) (k : Fin 100000) :
    h.lift (ix1 b) k = ix2 b k :=
  funext fun a => Fin.ext (by match a with | ⟨0, _⟩ => rfl | ⟨1, _⟩ => rfl)

/-- The body's lane maximum of row `b` is `rowMax` of that row. -/
theorem blockMax_eq (P0 P1 : FVec Ideal S8x100000 .f32) (b : Fin 8) :
    multiReduction (F := Ideal) .maximumf [1] S8 (addf P0 P1) 0xFF800000#32 reduces_S8x100000_S8 (.inl rfl) rfl (ix1 b)
      = rowMax (blockRow P0 P1 b) := by
  refine (Ideal.multiReduction_maximumf_single (φ := .f32) (addf P0 P1) 0xFF800000#32 reduces_S8x100000_S8 _ _ (ix1 b)).trans ?_
  show (Finset.univ : Finset (Fin 100000)).fold max (Ideal.ofBits .f32 0xFF800000#32) _
    = (Finset.univ : Finset (Fin 100000)).fold max ⊥ _
  rw [ofBits_neg_inf]
  refine Finset.fold_congr (fun k _ => ?_)
  show (addf P0 P1) (reduces_S8x100000_S8.lift (ix1 b) k) = _
  rw [lift_eq]
  rfl

/-- The body's lane sum of the shifted exponentials of row `b` is `rowSum` of that row. -/
theorem blockSum_eq (P0 P1 : FVec Ideal S8x100000 .f32) (b : Fin 8) :
    multiReduction (F := Ideal) .add [1] S8 (exp (subf (addf P0 P1) (broadcastTo S8x100000 (shapeCast S8x1 (multiReduction (F := Ideal) .maximumf [1] S8 (addf P0 P1) 0xFF800000#32 reduces_S8x100000_S8 (.inl rfl) rfl) shapeCasts_S8_S8x1) broadcasts_S8x1_S8x100000))) 0x00000000#32 reduces_S8x100000_S8 (.inl rfl) rfl (ix1 b)
      = rowSum (blockRow P0 P1 b) := by
  refine (Ideal.multiReduction_add_single (φ := .f32) _ 0x00000000#32 reduces_S8x100000_S8 _ _ (ix1 b)).trans ?_
  show ∑ k : Fin 100000, _ = ∑ k : Fin 100000, rowExp (blockRow P0 P1 b) k
  refine Finset.sum_congr rfl (fun k _ => ?_)
  rw [lift_eq]
  show Ideal.exp ((P0 (ix2 b k) + P1 (ix2 b k)) - broadcastTo S8x100000 (shapeCast S8x1 _ shapeCasts_S8_S8x1) broadcasts_S8x1_S8x100000 (ix2 b k)) = _
  rw [column_broadcast_apply, blockMax_eq]
  rfl

/-- THE BLOCK the body leaves, at entry `(b, q)`: the shifted exponential times the reciprocal of the row's sum. -/
theorem block_eq (P0 P1 : FVec Ideal S8x100000 .f32) (b : Fin 8) (q : Fin 100000) :
    Value.E2 (F := Ideal) P0 P1 (ix2 b q)
      = rowExp (blockRow P0 P1 b) q * Ideal.div 1 (rowSum (blockRow P0 P1 b)) := by
  have e0 : Value.ix2_0 (ix2 b q) = ix2 b q := funext fun a => Fin.ext (by match a with | ⟨0, _⟩ => rfl | ⟨1, _⟩ => rfl)
  have e1 : Value.ix2_1 (ix2 b q) = ix2 b q := funext fun a => Fin.ext (by match a with | ⟨0, _⟩ => rfl | ⟨1, _⟩ => rfl)
  have e2 : Value.ix2_2 (ix2 b q) = ix1 b := funext fun a => Fin.ext (by match a with | ⟨0, _⟩ => rfl)
  have e3 : Value.ix2_3 (ix2 b q) = ix1 b := funext fun a => Fin.ext (by match a with | ⟨0, _⟩ => rfl)
  dsimp only [Value.E2]
  rw [e0, e1, e2, e3, blockMax_eq, blockSum_eq]
  show Ideal.exp (P0 (ix2 b q) + P1 (ix2 b q) - rowMax (blockRow P0 P1 b)) * Ideal.div (Ideal.ofBits .f32 0x3F800000#32) (rowSum (blockRow P0 P1 b)) = _
  rw [ofBits_one]
  rfl

end Cert.KernelIdeal.Block

end
-- ==== Proof.KernelValue.lean ====
/-
  From the blocks to the array. The grid has 16 points; point `t` stages rows `8t … 8t+7` of both arguments (whole rows:
  the second block index is always 0) and writes back the same rows of the result. A block entry `(b, k)` of an input
  window at point `t` is therefore the array's entry `(8t + b, k)`, so row `b` of the block sum is row `8t + b` of the
  array sum, and what point `t` writes back is block `t` of `Gk` of the two argument arrays (`flushed_eq`). The 16 blocks
  cover the 128 rows — row `r` is in block `r / 8` — so the result array ends as `Gk` of the arguments (`final`, `run`).
-/
import proofs.«146944_g81492709474519_cont_9to1c4b_556_2_alg».proof.Proof.KernelBlock
import Idealize.ShloMosaic.Lib.Pipeline.Value
import Idealize.ShloMosaic.Lib.ValueIdx

noncomputable section

namespace Cert.KernelIdeal.KValue

open Cert.KernelIdeal Cert.KernelIdeal.Gen Cert.KernelIdeal.Block Cert.Softmax
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- The index maps over the 16 grid points: every window's block index is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- One entry of the stored block against one entry of `Gk`: if row `b` of each loaded block is row `r` of its array,
    then the block's entry `(b, q)` is `Gk`'s entry `(r, q)`. -/
theorem point_eq (a0 a1 : Arr.Idx → EReal) (P0 P1 : FVec Ideal S8x100000 .f32) (b : Fin 8) (r : Fin 128)
    (h0 : ∀ k : Fin 100000, P0 (ix2 b k) = a0 (ix2 r k)) (h1 : ∀ k : Fin 100000, P1 (ix2 b k) = a1 (ix2 r k))
    (q : Fin 100000) :
    Value.E2 (F := Ideal) P0 P1 (ix2 b q) = Gk a0 a1 (ix2 r q) := by
  rw [block_eq]
  have hrow : blockRow P0 P1 b = rowOf a0 a1 r := funext fun k => by unfold blockRow rowOf; rw [h0, h1]
  rw [hrow]
  rfl

/-- WHAT POINT `t` WRITES BACK is block `t` of `Gk` of the argument arrays. -/
theorem flushed_eq (c : Dev nD) (t : Fin cfg0.N) :
    (dats m 0 c).flushed 2 t = ((cfg0.win 2).blk t).view.read (Elt Ideal) (Gk (V m c main_arg0) (V m c main_arg1)) := by
  rw [Value.flushed2]
  obtain ⟨e00, e01, e10, e11, e20, e21⟩ := idx_facts t
  have ht : t.val < 16 := lt_of_lt_of_eq t.isLt N_0
  funext y
  have hy0 : (y 0).val < 8 := (y 0).isLt
  have hy1 : (y 1).val < 100000 := (y 1).isLt
  show out0_2 (iblk m c 0 t) (iblk m c 1 t) y = Gk (V m c main_arg0) (V m c main_arg1) (((cfg0.win 2).blk t).view.emb y)
  unfold out0_2
  rw [Value.canon2_eq]
  simp only [View.ld_unit_zero (S := S8x100000) origin_zero]
  refine (congrArg (Value.E2 (F := Ideal) (iblk m c 0 t) (iblk m c 1 t)) (eq_ix2 y)).trans
    ((point_eq (V m c main_arg0) (V m c main_arg1) (iblk m c 0 t) (iblk m c 1 t) ⟨(y 0).val, hy0⟩
      ⟨t.val * 8 + (y 0).val, by omega⟩ ?_ ?_ ⟨(y 1).val, hy1⟩).trans ?_)
  · intro k
    show V m c main_arg0 (((cfg0.win 0).blk t).view.emb (ix2 ⟨(y 0).val, hy0⟩ k)) = _
    refine congrArg (V m c main_arg0) (funext fun a => Fin.ext ?_)
    match a with
    | ⟨0, _⟩ => show win0_0.index t (0 : Fin 2) * 8 + 1 * (y 0).val = t.val * 8 + (y 0).val; omega
    | ⟨1, _⟩ => show win0_0.index t (1 : Fin 2) * 100000 + 1 * k.val = k.val; omega
  · intro k
    show V m c main_arg1 (((cfg0.win 1).blk t).view.emb (ix2 ⟨(y 0).val, hy0⟩ k)) = _
    refine congrArg (V m c main_arg1) (funext fun a => Fin.ext ?_)
    match a with
    | ⟨0, _⟩ => show win0_1.index t (0 : Fin 2) * 8 + 1 * (y 0).val = t.val * 8 + (y 0).val; omega
    | ⟨1, _⟩ => show win0_1.index t (1 : Fin 2) * 100000 + 1 * k.val = k.val; omega
  · refine congrArg (Gk (V m c main_arg0) (V m c main_arg1)) (funext fun a => Fin.ext ?_)
    match a with
    | ⟨0, _⟩ => show t.val * 8 + (y 0).val = win0_2.index t (0 : Fin 2) * 8 + 1 * (y 0).val; omega
    | ⟨1, _⟩ => show (y 1).val = win0_2.index t (1 : Fin 2) * 100000 + 1 * (y 1).val; omega

/-- An index of the array is in point `t`'s block iff each coordinate is in the block's range on its axis. -/
theorem mem_blk (t : Fin cfg0.N) (i : S128x100000.Idx) :
    i ∈ ((cfg0.win 2).blk t).view.set ↔ ∀ a : Fin 2, win0_2.index t a * S8x100000.size a ≤ (i a).val ∧ (i a).val < win0_2.index t a * S8x100000.size a + S8x100000.size a := by
  show i ∈ ((View.whole main_v0).slice (win0_2.rect t)).set ↔ _
  rw [View.set_slice_whole, Rect.mem_set_unit]
  exact Iff.rfl

/-- Every row block is some point's: block index `(q, 0)` for each `q < 16`. -/
theorem idx_onto : ∀ q0 : Fin 16, ∃ t : Fin cfg0.N, win0_2.index t = ![q0.val, 0] :=
  (by decide +kernel : ∀ q0 : Fin 16, ∃ t : Fin grid0.N, win0_2.index t = ![q0.val, 0])

/-- THE BLOCKS COVER THE ARRAY: entry `(r, k)` is in the block of point `r / 8`. -/
theorem cover (i : S128x100000.Idx) :
    ∃ t : Fin cfg0.N, (cfg0.win 2).flush t = true ∧ i ∈ ((cfg0.win 2).blk t).view.set := by
  have hi0 : (i 0).val < 128 := (i 0).isLt
  have hi1 : (i 1).val < 100000 := (i 1).isLt
  obtain ⟨t, ht⟩ := idx_onto ⟨(i 0).val / 8, by omega⟩
  have q0 : win0_2.index t (0 : Fin 2) = (i 0).val / 8 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 100000 ≤ (i 1).val ∧ (i 1).val < win0_2.index t (1 : Fin 2) * 100000 + 100000; omega

/-- THE RESULT ARRAY after the run is `Gk` of the argument arrays. -/
theorem final (c : Dev nD) :
    (dats m 0 c).arrAt 2 cfg0.N = Gk (m ((c : Thread nD τ).loc main_arg0)) (m ((c : Thread nD τ).loc main_arg1)) :=
  (dats m 0 c).arrAt_eq_of_cover 2 (Gk (V m c main_arg0) (V m c main_arg1)) (fun t _ => flushed_eq m c t) cover

/-- The kernel's run: the result at `Gk` of the arguments, the arguments unchanged. -/
theorem run : θ_run defs (onTc (τ := τ) (main (F := Ideal))) ⟨m, fun _ => 0, ρ⟩ fun r => ∀ c : Dev nD,
      r.2.mem ((c : Thread nD τ).loc main_v0) = Gk (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KValue

end
-- ==== Proof.lean ====
/-
  The certificate of a row softmax: `softmax (logits + gumbel)` along the rows of two f32[128, 100000] arrays.

  The kernel takes 8 whole rows per grid point (16 points). In a block it adds the two inputs, takes each row's maximum
  (from -∞), exponentiates the differences, sums each row, forms the reciprocal `1 / sum` once per row, and multiplies:
      out = exp (x - max x) * (1 / Σ exp (x - max x)).
  The reference is jnp's softmax of `(logits + gumbel) / 1.0`:
      out = exp (x - max x) / Σ exp (x - max x),
  with its row maximum joined once more with -∞ and its sum started from 0.

  On the extended reals both are functions of the argument arrays index by index (`Softmax.Gk` and `Softmax.G`,
  Proof/Spec.lean): the reference's division by 1.0 and its extra `max` with -∞ are identities, its sum from 0 is the
  sum, and the two row reductions (the kernel's over a block's row, the reference's over the array's row) fold the same
  100000 entries. They differ only in `e * (1/s)` against `e / s`, which agree when `s ≠ 0`; and under the
  precondition every input is a real, so each row's maximum is a real, each shifted exponential a positive real, and the
  row's sum is positive (Proof/SoftmaxRow.lean). The precondition is used exactly there.

  The frames: the two kernel programs' are the generated frame certificates; the reference's is its generated run with
  the result forgotten. No operation of the kernel was rewritten for the ideal reading, so `preserves` states nothing.
-/
import proofs.«146944_g81492709474519_cont_9to1c4b_556_2_alg».proof.Defs
import proofs.«146944_g81492709474519_cont_9to1c4b_556_2_alg».proof.Proof.Gen.Kernel
import proofs.«146944_g81492709474519_cont_9to1c4b_556_2_alg».proof.Proof.Gen.Kernel.Frame
import proofs.«146944_g81492709474519_cont_9to1c4b_556_2_alg».proof.Proof.Gen.KernelIdeal
import proofs.«146944_g81492709474519_cont_9to1c4b_556_2_alg».proof.Proof.Gen.KernelIdeal.Frame
import proofs.«146944_g81492709474519_cont_9to1c4b_556_2_alg».proof.Proof.Gen.KernelIdeal.Value
import proofs.«146944_g81492709474519_cont_9to1c4b_556_2_alg».proof.Proof.Gen.ReferenceIdeal
import proofs.«146944_g81492709474519_cont_9to1c4b_556_2_alg».proof.Proof.Gen.ReferenceIdeal.Run
import proofs.«146944_g81492709474519_cont_9to1c4b_556_2_alg».proof.Proof.Gen.ReferenceIdeal.Read
import proofs.«146944_g81492709474519_cont_9to1c4b_556_2_alg».proof.Proof.Gen.Pre_finite_inputs
import proofs.«146944_g81492709474519_cont_9to1c4b_556_2_alg».proof.Proof.Finite
import proofs.«146944_g81492709474519_cont_9to1c4b_556_2_alg».proof.Proof.RefValue
import proofs.«146944_g81492709474519_cont_9to1c4b_556_2_alg».proof.Proof.KernelValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing to preserve. -/
theorem preserves : Cert.preserves_Kernel_KernelIdeal := trivial

/-- Both programs end with the softmax array `G` of the (agreeing) arguments: the kernel with `Gk`, which is `G` on
    real inputs; the reference with `G` itself. -/
theorem algebraic : Cert.algebraic_KernelIdeal_ReferenceIdeal := by
  intro m ρ m' ρ' hpre hagree
  refine ⟨fun c => Cert.Softmax.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.KValue.run m ρ)
    obtain ⟨h0, h1⟩ := Cert.Pre_finite_inputs.Finite.real_inputs _ _ (hpre c)
    exact Cert.Softmax.Gk_eq_G _ _ h0 h1
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v13_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
